-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S5000x256 : Shape := ⟨2, ![5000, 256]⟩

abbrev nBuf : Space → Nat
  | .hbm => 74
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S50000x256, .bf16⟩
  | .hbm, ⟨38, _⟩ => ⟨S50000x256, .bf16⟩
  | .hbm, ⟨39, _⟩ => ⟨S256x256, .bf16⟩
  | .hbm, ⟨40, _⟩ => ⟨S256x256, .bf16⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S50000x256, .bf16⟩
  | .hbm, ⟨69, _⟩ => ⟨S50000x256, .bf16⟩
  | .hbm, ⟨70, _⟩ => ⟨S256x256, .bf16⟩
  | .hbm, ⟨71, _⟩ => ⟨S256x256, .bf16⟩
  | .hbm, ⟨72, _⟩ => ⟨S1x256, .f32⟩
  | .hbm, ⟨73, _⟩ => ⟨S50000x256, .f32⟩
  | .local _ .vmem, ⟨0, _⟩ => ⟨S5000x256, .bf16⟩
  | .local _ .vmem, ⟨1, _⟩ => ⟨S5000x256, .bf16⟩
  | .local _ .vmem, ⟨2, _⟩ => ⟨S5000x256, .bf16⟩
  | .local _ .vmem, ⟨3, _⟩ => ⟨S5000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .bf16⟩
  | .local _ .vmem, ⟨10, _⟩ => ⟨S5000x256, .bf16⟩
  | .local _ .vmem, ⟨11, _⟩ => ⟨S5000x256, .bf16⟩
  | .local _ .vmem, ⟨12, _⟩ => ⟨S5000x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bitsLt_bf16_f32 : FTy.bits .bf16 < FTy.bits .f32
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .bf16 = 32 ∨ (Rect.block (s := S50000x256) S5000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .bf16 = 32 ∨ (Rect.block (s := S50000x256) S5000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .bf16 = 32 ∨ (Rect.block (s := S50000x256) S5000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v23) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 77
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.ReferenceLayers.lean ====
/-
  The reference as two graph-convolution layers over one mean-aggregate.

  Both layers gather the source rows of every edge, scatter-add them onto the target rows, and divide each row by its
  in-degree (at least one): `meanAgg h e`, the same chain of host operations of the features `h` and the edge list `e`
  both times. A layer is then `(meanAgg h e · W_l + b) + h · W_r`; the hidden features are the first layer cut off below
  at zero, and the result is the second layer of the hidden features. The chain itself is never opened: it is carried
  as one function. Read at an index, a layer is the two row-by-column sums and the bias entry of the column.
-/
import proofs.«118461_j24610162606526_1_alg».proof.Proof.Gen.ReferenceIdeal.Read

noncomputable section

namespace Cert.ReferenceIdeal.Sage

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

section AnyValues
variable {F : FTy → Type} [FloatOps F]

/-- Mean of the source rows over each target row's incoming edges (rows without an edge: zero). -/
def meanAgg (h : (⟨S50000x256, .f32⟩ : BufTy).Contents (Elt F)) (e : (⟨S2x800000, .i32⟩ : BufTy).Contents (Elt F)) : (⟨S50000x256, .f32⟩ : BufTy).Contents (Elt F) :=
  Host.divf
    (Host.scatterAdd scatter_S50000x256_S800000x1_S800000x256_1_0_0_1 (val_main_v11 (F := F)) (val_main_v12 (F := F) e)
      (Host.gather gather_S50000x256_S800000x1_S800000x256_1_0_n_n_0_1_1256 h (val_main_v9 (F := F) e)))
    (val_main_v21 (F := F) e)

/-- One layer: `(meanAgg h e · W_l + b) + h · W_r`, in the order the reference adds. -/
def layer (h : (⟨S50000x256, .f32⟩ : BufTy).Contents (Elt F)) (e : (⟨S2x800000, .i32⟩ : BufTy).Contents (Elt F)) (wl : (⟨S256x256, .f32⟩ : BufTy).Contents (Elt F))
    (b : (⟨S256, .f32⟩ : BufTy).Contents (Elt F)) (wr : (⟨S256x256, .f32⟩ : BufTy).Contents (Elt F)) : (⟨S50000x256, .f32⟩ : BufTy).Contents (Elt F) :=
  addf (addf (Host.dotGeneral dot_S50000x256_S256x256_S50000x256_1_0_0_1_n_n none (meanAgg h e) wl) (val_main_v25 (F := F) b))
    (Host.dotGeneral dot_S50000x256_S256x256_S50000x256_1_0_0_1_n_n none h wr)

/-- The hidden features: the first layer cut off below at zero. -/
def hidden (x : (⟨S50000x256, .f32⟩ : BufTy).Contents (Elt F)) (e : (⟨S2x800000, .i32⟩ : BufTy).Contents (Elt F)) (wl : (⟨S256x256, .f32⟩ : BufTy).Contents (Elt F))
    (b : (⟨S256, .f32⟩ : BufTy).Contents (Elt F)) (wr : (⟨S256x256, .f32⟩ : BufTy).Contents (Elt F)) : (⟨S50000x256, .f32⟩ : BufTy).Contents (Elt F) :=
  maximumf (layer x e wl b wr) (val_main_call0_v0 (F := F))

/-- The reference's hidden stage is `hidden` of the arguments. -/
theorem hidden_stage (x0 : (⟨S50000x256, .f32⟩ : BufTy).Contents (Elt F)) (x1 : (⟨S2x800000, .i32⟩ : BufTy).Contents (Elt F)) (x2 : (⟨S256x256, .f32⟩ : BufTy).Contents (Elt F))
    (x3 : (⟨S256, .f32⟩ : BufTy).Contents (Elt F)) (x4 : (⟨S256x256, .f32⟩ : BufTy).Contents (Elt F)) :
    val_main_v29 (F := F) x0 x1 x2 x3 x4 = hidden x0 x1 x2 x3 x4 := rfl

/-- The second aggregate's index and degree stages are the first's: the same operations of the edge list. -/
theorem src_again (x1 : (⟨S2x800000, .i32⟩ : BufTy).Contents (Elt F)) : val_main_v35 (F := F) x1 = val_main_v9 (F := F) x1 := rfl
theorem tgt_again (x1 : (⟨S2x800000, .i32⟩ : BufTy).Contents (Elt F)) : val_main_v38 (F := F) x1 = val_main_v12 (F := F) x1 := rfl
theorem deg_again (x1 : (⟨S2x800000, .i32⟩ : BufTy).Contents (Elt F)) : val_main_v47 (F := F) x1 = val_main_v21 (F := F) x1 := rfl

/-- The reference's result stage is the second layer of the hidden features. -/
theorem result_stage (x0 : (⟨S50000x256, .f32⟩ : BufTy).Contents (Elt F)) (x1 : (⟨S2x800000, .i32⟩ : BufTy).Contents (Elt F)) (x2 : (⟨S256x256, .f32⟩ : BufTy).Contents (Elt F))
    (x3 : (⟨S256, .f32⟩ : BufTy).Contents (Elt F)) (x4 x5 : (⟨S256x256, .f32⟩ : BufTy).Contents (Elt F)) (x6 : (⟨S256, .f32⟩ : BufTy).Contents (Elt F)) (x7 : (⟨S256x256, .f32⟩ : BufTy).Contents (Elt F)) :
    val_main_v54 (F := F) x0 x1 x2 x3 x4 x5 x6 x7 = layer (hidden x0 x1 x2 x3 x4) x1 x5 x6 x7 := by
  unfold val_main_v54 val_main_v52 val_main_v53 val_main_v49 val_main_v48 val_main_v39 val_main_v36 layer meanAgg
  rw [hidden_stage, src_again, tgt_again, deg_again]
  rfl

end AnyValues

/-! ## A layer read at an index, over the extended reals -/

/-- A features array times a weight matrix on the host, at entry `i`: the row-by-column sum. -/
theorem product_apply (l : (⟨S50000x256, .f32⟩ : BufTy).Contents (Elt Ideal)) (r : (⟨S256x256, .f32⟩ : BufTy).Contents (Elt Ideal)) (i : S50000x256.Idx) :
    Host.dotGeneral (F := Ideal) (φ₁ := .f32) (φ₂ := .f32) dot_S50000x256_S256x256_S50000x256_1_0_0_1_n_n none l r i = ∑ k : Fin 256, l (lidx_main_v27 i k) * r (ridx_main_v27 i k) :=
  val_main_v27_apply l r i

/-- The bias repeated down the rows, at entry `i`: the bias entry of the column. -/
theorem biasRows_apply (b : (⟨S256, .f32⟩ : BufTy).Contents (Elt Ideal)) (i : S50000x256.Idx) :
    val_main_v25 (F := Ideal) b i = b (idx_main_v24 (idx_main_v25 i)) :=
  (val_main_v25_apply b i).trans (val_main_v24_apply b _)

/-- Entry `i` of a layer: the aggregate's row times `W_l`'s column, plus the bias entry of the column, plus the
    features' row times `W_r`'s column. -/
theorem layer_apply (h : (⟨S50000x256, .f32⟩ : BufTy).Contents (Elt Ideal)) (e : (⟨S2x800000, .i32⟩ : BufTy).Contents (Elt Ideal)) (wl : (⟨S256x256, .f32⟩ : BufTy).Contents (Elt Ideal))
    (b : (⟨S256, .f32⟩ : BufTy).Contents (Elt Ideal)) (wr : (⟨S256x256, .f32⟩ : BufTy).Contents (Elt Ideal)) (i : S50000x256.Idx) :
    layer (F := Ideal) h e wl b wr i
      = (∑ k : Fin 256, meanAgg (F := Ideal) h e (lidx_main_v27 i k) * wl (ridx_main_v27 i k) + b (idx_main_v24 (idx_main_v25 i)))
        + ∑ k : Fin 256, h (lidx_main_v27 i k) * wr (ridx_main_v27 i k) := by
  unfold layer
  rw [addf_apply, addf_apply, product_apply, product_apply, biasRows_apply]

/-- Entry `i` of the hidden features: the layer's entry, or zero if that is larger. -/
theorem hidden_apply (x : (⟨S50000x256, .f32⟩ : BufTy).Contents (Elt Ideal)) (e : (⟨S2x800000, .i32⟩ : BufTy).Contents (Elt Ideal)) (wl : (⟨S256x256, .f32⟩ : BufTy).Contents (Elt Ideal))
    (b : (⟨S256, .f32⟩ : BufTy).Contents (Elt Ideal)) (wr : (⟨S256x256, .f32⟩ : BufTy).Contents (Elt Ideal)) (i : S50000x256.Idx) :
    hidden (F := Ideal) x e wl b wr i = max (layer (F := Ideal) x e wl b wr i) (Ideal.ofBits .f32 0x00000000#32) := by
  unfold hidden
  rw [maximumf_apply, val_main_call0_v0_apply, val_main_call0_cst_apply]
  rfl

end Cert.ReferenceIdeal.Sage

end
-- ==== Proof.BlockProduct.lean ====
/-
  One grid point of the combine step, read at an index.

  The body of either launch takes a 5000×256 block `a` of mean-aggregated neighbour features, the matching block `x` of
  the nodes' own features, two 256×256 weight matrices `wl`, `wr` and a bias row `b`, and stores
  `(a·wl + x·wr) + b` (the second layer) or `max ((a·wl + x·wr) + b) 0` (the first). Over the extended reals each matrix
  product into a zero accumulator is, at entry (r, q), the plain sum over k of row r times column q; the bias row is
  repeated down the rows.
-/
import proofs.«118461_j24610162606526_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Sage

open Cert.KernelIdeal Cert.KernelIdeal.Gen Idealize.ShloMosaic Idealize.ShloMosaic.ValueIdx

/-- Entry (row of `j`, `k`) of a 5000×256 block. -/
abbrev rowAt (j : S5000x256.Idx) (k : Fin 256) : S5000x256.Idx := fun a => match a with
  | ⟨0, _⟩ => ⟨(j 0).val, (j 0).isLt⟩
  | ⟨1, _⟩ => ⟨k.val, k.isLt⟩
/-- Entry (`k`, column of `j`) of a 256×256 weight matrix. -/
abbrev colAt (j : S5000x256.Idx) (k : Fin 256) : S256x256.Idx := fun a => match a with
  | ⟨0, _⟩ => ⟨k.val, k.isLt⟩
  | ⟨1, _⟩ => ⟨(j 1).val, (j 1).isLt⟩
/-- The bias row's entry over the column of `j`. -/
abbrev biasAt (j : S5000x256.Idx) : S1x256.Idx := fun a => match a with
  | ⟨0, _⟩ => ⟨0, Nat.one_pos⟩
  | ⟨1, _⟩ => ⟨(j 1).val, (j 1).isLt⟩

/-! The product's operand indices, axis by axis: the left operand keeps the output's row and takes the contraction
    index as its column; the right operand takes the contraction index as its row and keeps the output's column. -/

theorem lhs_blk_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_blk_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_blk_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_blk_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A block times a weight matrix, accumulated into zero, at entry `j`: the sum over `k` of the block's row entry
    times the matrix's column entry. -/
theorem blockProduct_apply (x : FVec Ideal S5000x256 .bf16) (w : FVec Ideal S256x256 .bf16) (j : S5000x256.Idx) :
    matmul dot_S5000x256_S256x256_S5000x256_1_0_0_1_n_n none x w (constant S5000x256 .f32 0x00000000#32) j
      = ∑ k : Fin 256, x (rowAt j k) * w (colAt j k) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j ((ValueIdx.contrEquiv1 dot_S5000x256_S256x256_S5000x256_1_0_0_1_n_n 256 rfl rfl).symm k) = rowAt j k := funext fun a => Fin.ext (by
    match a with
    | ⟨0, _⟩ => exact lhs_blk_0 _ _
    | ⟨1, _⟩ => exact (lhs_blk_1 _ _).trans hk)
  have er : dot_S5000x256_S256x256_S5000x256_1_0_0_1_n_n.rhsIdx j ((ValueIdx.contrEquiv1 dot_S5000x256_S256x256_S5000x256_1_0_0_1_n_n 256 rfl rfl).symm k) = colAt j k := funext fun a => Fin.ext (by
    match a with
    | ⟨0, _⟩ => exact (rhs_blk_0 _ _).trans hk
    | ⟨1, _⟩ => exact rhs_blk_1 _ _)
  rw [el, er]

/-- The bias row repeated down the 5000 rows, at entry `j`. -/
theorem biasRows_apply (b : FVec Ideal S1x256 .f32) (j : S5000x256.Idx) :
    broadcastTo S5000x256 b broadcasts_S1x256_S5000x256 j = b (biasAt j) :=
  broadcastTo_apply b broadcasts_S1x256_S5000x256 j (biasAt j) (fun a => by
    match a with
    | ⟨0, _⟩ => rfl
    | ⟨1, _⟩ => rfl)

/-- The second layer's stored block at entry `j`: both products' sums, then the bias. -/
theorem layer2_block_apply (a x : Vec Ideal S5000x256 .bf16) (wl wr : Vec Ideal S256x256 .bf16) (b : Vec Ideal S1x256 .f32)
    (j : S5000x256.Idx) :
    k1_pay1 (F := Ideal) a x wl wr b j
      = (∑ k : Fin 256, a (rowAt j k) * wl (colAt j k) + ∑ k : Fin 256, x (rowAt j k) * wr (colAt j k)) + b (biasAt j) := by
  unfold k1_pay1
  simp only [shapeCast_self]
  rw [addf_apply, addf_apply, blockProduct_apply, blockProduct_apply, biasRows_apply]

/-- The first layer's stored block is the same sum cut off below at zero. -/
theorem layer1_block_apply (a x : Vec Ideal S5000x256 .bf16) (wl wr : Vec Ideal S256x256 .bf16) (b : Vec Ideal S1x256 .f32)
    (j : S5000x256.Idx) :
    k0_pay1 (F := Ideal) a x wl wr b j
      = max ((∑ k : Fin 256, a (rowAt j k) * wl (colAt j k) + ∑ k : Fin 256, x (rowAt j k) * wr (colAt j k)) + b (biasAt j))
          (Ideal.ofBits .f32 0x00000000#32) := by
  unfold k0_pay1
  simp only [shapeCast_self]
  rw [maximumf_apply, addf_apply, addf_apply, blockProduct_apply, blockProduct_apply, biasRows_apply]
  rfl

/-! ## The same step over the whole 50000-row arrays

    The grid cuts the rows into ten blocks of 5000; a row's result reads only that row of the two feature arrays, so the
    ten stored blocks are the restrictions of ONE function of the whole arrays. -/

/-- Entry (row of `i`, `k`) of a 50000×256 feature array. -/
abbrev rowOf (i : S50000x256.Idx) (k : Fin 256) : S50000x256.Idx := fun a => match a with
  | ⟨0, _⟩ => ⟨(i 0).val, (i 0).isLt⟩
  | ⟨1, _⟩ => ⟨k.val, k.isLt⟩
/-- Entry (`k`, column of `i`) of a 256×256 weight matrix. -/
abbrev colOf (i : S50000x256.Idx) (k : Fin 256) : S256x256.Idx := fun a => match a with
  | ⟨0, _⟩ => ⟨k.val, k.isLt⟩
  | ⟨1, _⟩ => ⟨(i 1).val, (i 1).isLt⟩
/-- The bias row's entry over the column of `i`. -/
abbrev biasOf (i : S50000x256.Idx) : S1x256.Idx := fun a => match a with
  | ⟨0, _⟩ => ⟨0, Nat.one_pos⟩
  | ⟨1, _⟩ => ⟨(i 1).val, (i 1).isLt⟩

/-- The combine step of a layer, entry by entry: `(agg·W_l + x·W_r) + b`, in the order the body adds. -/
def combine (agg x : FVec Ideal S50000x256 .bf16) (wl wr : FVec Ideal S256x256 .bf16) (b : FVec Ideal S1x256 .f32) :
    FVec Ideal S50000x256 .f32 := fun i =>
  (∑ k : Fin 256, agg (rowOf i k) * wl (colOf i k) + ∑ k : Fin 256, x (rowOf i k) * wr (colOf i k)) + b (biasOf i)

/-- The first layer's: the same cut off below at zero. -/
def combineRelu (agg x : FVec Ideal S50000x256 .bf16) (wl wr : FVec Ideal S256x256 .bf16) (b : FVec Ideal S1x256 .f32) :
    FVec Ideal S50000x256 .f32 := fun i =>
  max (combine agg x wl wr b i) (Ideal.ofBits .f32 0x00000000#32)

end Cert.KernelIdeal.Sage

end
-- ==== Proof.HostStretch.lean ====
/-
  What the two launches are entered with.

  Before each launch the host program computes the mean-aggregate of the current features over the edge list, narrows
  the aggregate, the features and the two weight matrices to bf16, and lays the bias out as a row. The edge list's two
  rows (sources and targets) are cut out once, before the first launch, and read again before the second. Each window's
  array at a region's entry is therefore one of these operations of the program's arguments and, for the second region,
  of the first region's result; no region writes an argument or the two index rows.
-/
import proofs.«118461_j24610162606526_1_alg».proof.Proof.KernelIdealFrameP
import Idealize.ShloMosaic.Lib.StableHlo.Run

set_option maxRecDepth 16384

noncomputable section

namespace Cert.KernelIdeal.Sage

open Cert.KernelIdeal Cert.KernelIdeal.Gen Cert.KernelIdeal.GenP Idealize.ShloMosaic Idealize.ShloMosaic.TcCoe Idealize.SL.Sem Idealize.ShloMosaic.StableHlo

variable {F : FTy → Type} [FloatOps F]

/-- The edges' source nodes: row 0 of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
/-- The edges' target nodes: row 1 of the edge list. -/
def tgtOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Mean of the source rows of `h` over each target row's incoming edges: gather the source rows (a negative index
    counted from the end), scatter-add them onto the target rows, divide each row by its in-degree, at least one. -/
def meanAggOf (h : (⟨S50000x256, .f32⟩ : BufTy).Contents (Elt F)) (src tgt : (⟨S800000, .i32⟩ : BufTy).Contents (Elt F)) : (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 tgt)
      (Host.gather gather_S50000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 tgt)
            (broadcastInDim S800000 ![] bcast_S_S800000 (constant S_ .f32 0x3F800000#32)))
          (broadcastInDim S50000 ![] bcast_S_S50000 (constant S_ .f32 0x3F800000#32)))))

variable (m : (ℓ : Loc nD τ sig) → Buf (Elt F) ℓ) (ρ : Dev nD → PrngReg)

/-! ## Region 0's entry -/

theorem entry0_src (c : Dev nD) : V1 m ρ c main_v1 = srcOf (m ((c : Thread nD τ).loc main_arg1)) := by
  show StableHlo.after hostOps0 (W0 m ρ c) (Proc.devRef .tc main_v1) = _
  after_results_simp <;> rfl
theorem entry0_tgt (c : Dev nD) : V1 m ρ c main_v3 = tgtOf (m ((c : Thread nD τ).loc main_arg1)) := by
  show StableHlo.after hostOps0 (W0 m ρ c) (Proc.devRef .tc main_v3) = _
  after_results_simp <;> rfl
theorem entry0_agg (c : Dev nD) : V1 m ρ c main_v23
    = truncf .bf16 (meanAggOf (m ((c : Thread nD τ).loc main_arg0)) (srcOf (m ((c : Thread nD τ).loc main_arg1))) (tgtOf (m ((c : Thread nD τ).loc main_arg1)))) bitsLt_bf16_f32 := by
  show StableHlo.after hostOps0 (W0 m ρ c) (Proc.devRef .tc main_v23) = _
  after_results_simp <;> rfl
theorem entry0_feat (c : Dev nD) : V1 m ρ c main_v24 = truncf .bf16 (m ((c : Thread nD τ).loc main_arg0)) bitsLt_bf16_f32 := by
  show StableHlo.after hostOps0 (W0 m ρ c) (Proc.devRef .tc main_v24) = _
  after_results_simp <;> rfl
theorem entry0_wl (c : Dev nD) : V1 m ρ c main_v25 = truncf .bf16 (m ((c : Thread nD τ).loc main_arg2)) bitsLt_bf16_f32 := by
  show StableHlo.after hostOps0 (W0 m ρ c) (Proc.devRef .tc main_v25) = _
  after_results_simp <;> rfl
theorem entry0_wr (c : Dev nD) : V1 m ρ c main_v26 = truncf .bf16 (m ((c : Thread nD τ).loc main_arg4)) bitsLt_bf16_f32 := by
  show StableHlo.after hostOps0 (W0 m ρ c) (Proc.devRef .tc main_v26) = _
  after_results_simp <;> rfl
theorem entry0_bias (c : Dev nD) : V1 m ρ c main_v27 = shapeCast _ (m ((c : Thread nD τ).loc main_arg3)) shapeCasts_S256_S1x256 := by
  show StableHlo.after hostOps0 (W0 m ρ c) (Proc.devRef .tc main_v27) = _
  after_results_simp <;> rfl
/-- The arguments the second stretch reads are still as launched after the first. -/
theorem entry0_arg5 (c : Dev nD) : V1 m ρ c main_arg5 = m ((c : Thread nD τ).loc main_arg5) := by
  show StableHlo.after hostOps0 (W0 m ρ c) (Proc.devRef .tc main_arg5) = _
  after_results_simp <;> rfl
theorem entry0_arg6 (c : Dev nD) : V1 m ρ c main_arg6 = m ((c : Thread nD τ).loc main_arg6) := by
  show StableHlo.after hostOps0 (W0 m ρ c) (Proc.devRef .tc main_arg6) = _
  after_results_simp <;> rfl
theorem entry0_arg7 (c : Dev nD) : V1 m ρ c main_arg7 = m ((c : Thread nD τ).loc main_arg7) := by
  show StableHlo.after hostOps0 (W0 m ρ c) (Proc.devRef .tc main_arg7) = _
  after_results_simp <;> rfl

/-! ## Region 0's exit: its output array is what the launch leaves; it writes nothing else -/

theorem exit0_out (c : Dev nD) : V2 m ρ c main_v28 = (dat0 (V1 m ρ) c).arrAt 5 cfg0.N := W2_arr m ρ c 5
theorem exit0_src (c : Dev nD) : V2 m ρ c main_v1 = V1 m ρ c main_v1 := W2_of_ne m ρ c main_v1 (by decide)
theorem exit0_tgt (c : Dev nD) : V2 m ρ c main_v3 = V1 m ρ c main_v3 := W2_of_ne m ρ c main_v3 (by decide)
theorem exit0_arg5 (c : Dev nD) : V2 m ρ c main_arg5 = V1 m ρ c main_arg5 := W2_of_ne m ρ c main_arg5 (by decide)
theorem exit0_arg6 (c : Dev nD) : V2 m ρ c main_arg6 = V1 m ρ c main_arg6 := W2_of_ne m ρ c main_arg6 (by decide)
theorem exit0_arg7 (c : Dev nD) : V2 m ρ c main_arg7 = V1 m ρ c main_arg7 := W2_of_ne m ρ c main_arg7 (by decide)

/-! ## Region 1's entry -/

theorem entry1_agg (c : Dev nD) : V3 m ρ c main_v48
    = truncf .bf16 (meanAggOf (V2 m ρ c main_v28) (V2 m ρ c main_v1) (V2 m ρ c main_v3)) bitsLt_bf16_f32 := by
  show StableHlo.after hostOps1 (W2 m ρ c) (Proc.devRef .tc main_v48) = _
  after_results_simp <;> rfl
theorem entry1_feat (c : Dev nD) : V3 m ρ c main_v49 = truncf .bf16 (V2 m ρ c main_v28) bitsLt_bf16_f32 := by
  show StableHlo.after hostOps1 (W2 m ρ c) (Proc.devRef .tc main_v49) = _
  after_results_simp <;> rfl
theorem entry1_wl (c : Dev nD) : V3 m ρ c main_v50 = truncf .bf16 (V2 m ρ c main_arg5) bitsLt_bf16_f32 := by
  show StableHlo.after hostOps1 (W2 m ρ c) (Proc.devRef .tc main_v50) = _
  after_results_simp <;> rfl
theorem entry1_wr (c : Dev nD) : V3 m ρ c main_v51 = truncf .bf16 (V2 m ρ c main_arg7) bitsLt_bf16_f32 := by
  show StableHlo.after hostOps1 (W2 m ρ c) (Proc.devRef .tc main_v51) = _
  after_results_simp <;> rfl
theorem entry1_bias (c : Dev nD) : V3 m ρ c main_v52 = shapeCast _ (V2 m ρ c main_arg6) shapeCasts_S256_S1x256 := by
  show StableHlo.after hostOps1 (W2 m ρ c) (Proc.devRef .tc main_v52) = _
  after_results_simp <;> rfl

/-- Region 1's output array, the program's result, is what the launch leaves. -/
theorem exit1_out (c : Dev nD) : W4 m ρ c (Proc.devRef .tc main_v53) = (dat1 (V3 m ρ) c).arrAt 5 cfg1.N := W4_arr m ρ c 5

end Cert.KernelIdeal.Sage

end
-- ==== Proof.LayerLaw.lean ====
/-
  The law that joins the two programs.

  The kernel's launch adds `(agg·W_l + x·W_r) + b`; the reference adds `(agg·W_l + b) + x·W_r`. Over the extended reals
  addition is commutative and associative with no side condition (it is a commutative monoid, infinities included), so
  the two agree entry by entry by `(s + t) + b = (s + b) + t`; nothing has to be finite. Around the law: the
  mean-aggregate is spelt once in each program, over that program's own tables of gather and scatter dimensions, and
  the two spellings are one function; the reference reads a product's operands at the same (row, k) and (k, column)
  entries as the kernel's block; the kernel's bias row `[1,256]` holds the bias entry of its column; and narrowing to
  bf16 changes nothing over the extended reals.
-/
import proofs.«118461_j24610162606526_1_alg».proof.Proof.BlockProduct
import proofs.«118461_j24610162606526_1_alg».proof.Proof.HostStretch
import proofs.«118461_j24610162606526_1_alg».proof.Proof.ReferenceLayers

noncomputable section

namespace Cert.Sage

open Idealize.ShloMosaic Idealize.ShloMosaic.ValueIdx
open Cert.KernelIdeal.Sage (combine combineRelu rowOf colOf biasOf meanAggOf srcOf tgtOf)
open Cert.ReferenceIdeal.Sage (meanAgg layer hidden)
open Cert.ReferenceIdeal.Read (lidx_main_v27 ridx_main_v27 idx_main_v24 idx_main_v25)

/-- The kernel program's spelling of the mean-aggregate and the reference's are one function of the features and the
    edge list, whatever the float values are. -/
theorem meanAgg_same {F : FTy → Type} [FloatOps F] (h : (⟨Cert.ReferenceIdeal.S50000x256, .f32⟩ : BufTy).Contents (Elt F)) (e : (⟨Cert.ReferenceIdeal.S2x800000, .i32⟩ : BufTy).Contents (Elt F)) :
    meanAggOf (F := F) h (srcOf (F := F) e) (tgtOf (F := F) e) = meanAgg (F := F) h e := rfl

/-- The reference reads the left operand of a product at (row of `i`, `k`) … -/
theorem lidx_eq (i : Cert.ReferenceIdeal.S50000x256.Idx) (k : Fin 256) : lidx_main_v27 i k = rowOf i k :=
  funext fun a => by
    match a with
    | ⟨0, _⟩ => rfl
    | ⟨1, _⟩ => rfl
/-- … and the right operand at (`k`, column of `i`). -/
theorem ridx_eq (i : Cert.ReferenceIdeal.S50000x256.Idx) (k : Fin 256) : ridx_main_v27 i k = colOf i k :=
  funext fun a => by
    match a with
    | ⟨0, _⟩ => rfl
    | ⟨1, _⟩ => rfl

/-- The bias laid out as a row `[1,256]`, at entry (0, q): the bias entry q. -/
theorem biasRow_apply (b : FVec Ideal Cert.KernelIdeal.S256 .f32) (q : Cert.KernelIdeal.S1x256.Idx) (j : Cert.KernelIdeal.S256.Idx)
    (hj : (j 0).val = (q 1).val) :
    shapeCast Cert.KernelIdeal.S1x256 b Cert.KernelIdeal.Facts₀.shapeCasts_S256_S1x256 q = b j :=
  shapeCast_apply b Cert.KernelIdeal.Facts₀.shapeCasts_S256_S1x256 q j (by
    rewrite [Shape.rowMajor_val_one, Shape.rowMajor_val_two]
    have h0 : (q 0).val < 1 := (q 0).isLt
    show (j 0).val = (q 0).val * 256 + (q 1).val
    omega)

/-- Narrowing to bf16 is the identity over the extended reals. -/
theorem narrow_id {s : Shape} (a : FVec Ideal s .f32) :
    (truncf .bf16 a Cert.KernelIdeal.Facts₀.bitsLt_bf16_f32 : FVec Ideal s .bf16) = a := rfl

/-- A LAYER IS THE KERNEL'S COMBINE STEP of the same aggregate, features, weights and bias: entry by entry
    `(s + b) + t = (s + t) + b`. -/
theorem layer_eq_combine (h : (⟨Cert.ReferenceIdeal.S50000x256, .f32⟩ : BufTy).Contents (Elt Ideal)) (e : (⟨Cert.ReferenceIdeal.S2x800000, .i32⟩ : BufTy).Contents (Elt Ideal)) (wl : (⟨Cert.ReferenceIdeal.S256x256, .f32⟩ : BufTy).Contents (Elt Ideal))
    (b : (⟨Cert.ReferenceIdeal.S256, .f32⟩ : BufTy).Contents (Elt Ideal)) (wr : (⟨Cert.ReferenceIdeal.S256x256, .f32⟩ : BufTy).Contents (Elt Ideal)) :
    layer (F := Ideal) h e wl b wr
      = combine (meanAgg (F := Ideal) h e) h wl wr (shapeCast Cert.KernelIdeal.S1x256 b Cert.KernelIdeal.Facts₀.shapeCasts_S256_S1x256) := by
  funext i
  rw [Cert.ReferenceIdeal.Sage.layer_apply]
  unfold combine
  rw [biasRow_apply b (biasOf i) (idx_main_v24 (idx_main_v25 i)) rfl]
  simp only [lidx_eq, ridx_eq]
  exact add_right_comm _ _ _

/-- The hidden features are the kernel's first combine step, cut off below at zero. -/
theorem hidden_eq_combineRelu (x : (⟨Cert.ReferenceIdeal.S50000x256, .f32⟩ : BufTy).Contents (Elt Ideal)) (e : (⟨Cert.ReferenceIdeal.S2x800000, .i32⟩ : BufTy).Contents (Elt Ideal)) (wl : (⟨Cert.ReferenceIdeal.S256x256, .f32⟩ : BufTy).Contents (Elt Ideal))
    (b : (⟨Cert.ReferenceIdeal.S256, .f32⟩ : BufTy).Contents (Elt Ideal)) (wr : (⟨Cert.ReferenceIdeal.S256x256, .f32⟩ : BufTy).Contents (Elt Ideal)) :
    hidden (F := Ideal) x e wl b wr
      = combineRelu (meanAgg (F := Ideal) x e) x wl wr (shapeCast Cert.KernelIdeal.S1x256 b Cert.KernelIdeal.Facts₀.shapeCasts_S256_S1x256) := by
  funext i
  rw [Cert.ReferenceIdeal.Sage.hidden_apply, layer_eq_combine]
  rfl

end Cert.Sage

end
-- ==== Proof.RegionArray0.lean ====
/-
  Region 0 as one function of the arrays it is entered with.

  The launch walks ten grid points; point t stages rows 5000·t … 5000·t + 4999 of the two feature arrays, the two
  weight matrices and the bias row whole, runs the body, and writes its 5000×256 result back over the same rows of
  the output array. A result row reads only its own row of the features, so what point t writes back is block t of
  `combineRelu` of the whole entry arrays; the ten blocks tile the output, which therefore ends holding `combineRelu` everywhere.
  Stated at any entry contents `V`, so that the run can put in the contents this region really finds.
-/
import proofs.«118461_j24610162606526_1_alg».proof.Proof.KernelIdealFrameP
import proofs.«118461_j24610162606526_1_alg».proof.Proof.BlockProduct

set_option maxRecDepth 16384

noncomputable section

namespace Cert.KernelIdeal.Sage

open Cert.KernelIdeal Cert.KernelIdeal.Gen Cert.KernelIdeal.GenP Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! The entry arrays and the staged blocks, each under its literal type. -/

abbrev aggArr0 (c : Dev nD) : FVec Ideal S50000x256 .bf16 := V c main_v23
abbrev featArr0 (c : Dev nD) : FVec Ideal S50000x256 .bf16 := V c main_v24
abbrev wlArr0 (c : Dev nD) : FVec Ideal S256x256 .bf16 := V c main_v25
abbrev wrArr0 (c : Dev nD) : FVec Ideal S256x256 .bf16 := V c main_v26
abbrev biasArr0 (c : Dev nD) : FVec Ideal S1x256 .f32 := V c main_v27

abbrev aggBlk0 (c : Dev nD) (t : Fin cfg0.N) : Vec Ideal S5000x256 .bf16 := iblk0 V c 0 t
abbrev featBlk0 (c : Dev nD) (t : Fin cfg0.N) : Vec Ideal S5000x256 .bf16 := iblk0 V c 1 t
abbrev wlBlk0 (c : Dev nD) (t : Fin cfg0.N) : Vec Ideal S256x256 .bf16 := iblk0 V c 2 t
abbrev wrBlk0 (c : Dev nD) (t : Fin cfg0.N) : Vec Ideal S256x256 .bf16 := iblk0 V c 3 t
abbrev biasBlk0 (c : Dev nD) (t : Fin cfg0.N) : Vec Ideal S1x256 .f32 := iblk0 V c 4 t

theorem zeroOffset0 : (![0, 0] : Fin 2 → Nat) = fun _ => 0 := funext fun a => by fin_cases a <;> rfl

/-- The printed index maps over the ten points: the two feature windows and the output move together down the rows
    and stay at column block 0; the weights and the bias stay at block (0, 0); the output's row block is the point. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem idx_onto0 : ∀ q : Fin 10, ∃ t : Fin cfg0.N, win0_5.index t = ![q.val, 0] :=
  (by decide +kernel : ∀ q : Fin 10, ∃ t : Fin grid0.N, win0_5.index t = ![q.val, 0])

/-! A staged block's entry is the array's entry at block index × block size + the coordinate inside the block. -/

theorem aggBlk0_apply (c : Dev nD) (t : Fin cfg0.N) (y : S5000x256.Idx) (i : S50000x256.Idx)
    (h0 : (i 0).val = win0_5.index t (0 : Fin 2) * 5000 + (y 0).val) (h1 : (i 1).val = (y 1).val) :
    aggBlk0 V c t y = aggArr0 V c i := by
  show V c main_v23 (((cfg0.win 0).blk t).view.emb y) = V c main_v23 i
  obtain ⟨e0, e1, -⟩ := idx_facts0 t
  refine congrArg (V c main_v23) (funext fun a => Fin.ext ?_)
  match a with
  | ⟨0, _⟩ => show win0_0.index t (0 : Fin 2) * 5000 + 1 * (y 0).val = (i 0).val; omega
  | ⟨1, _⟩ => show win0_0.index t (1 : Fin 2) * 256 + 1 * (y 1).val = (i 1).val; omega

theorem featBlk0_apply (c : Dev nD) (t : Fin cfg0.N) (y : S5000x256.Idx) (i : S50000x256.Idx)
    (h0 : (i 0).val = win0_5.index t (0 : Fin 2) * 5000 + (y 0).val) (h1 : (i 1).val = (y 1).val) :
    featBlk0 V c t y = featArr0 V c i := by
  show V c main_v24 (((cfg0.win 1).blk t).view.emb y) = V c main_v24 i
  obtain ⟨-, -, e0, e1, -⟩ := idx_facts0 t
  refine congrArg (V c main_v24) (funext fun a => Fin.ext ?_)
  match a with
  | ⟨0, _⟩ => show win0_1.index t (0 : Fin 2) * 5000 + 1 * (y 0).val = (i 0).val; omega
  | ⟨1, _⟩ => show win0_1.index t (1 : Fin 2) * 256 + 1 * (y 1).val = (i 1).val; omega

theorem wlBlk0_apply (c : Dev nD) (t : Fin cfg0.N) (y : S256x256.Idx) (i : S256x256.Idx)
    (h0 : (i 0).val = (y 0).val) (h1 : (i 1).val = (y 1).val) :
    wlBlk0 V c t y = wlArr0 V c i := by
  show V c main_v25 (((cfg0.win 2).blk t).view.emb y) = V c main_v25 i
  obtain ⟨-, -, -, -, e0, e1, -⟩ := idx_facts0 t
  refine congrArg (V c main_v25) (funext fun a => Fin.ext ?_)
  match a with
  | ⟨0, _⟩ => show win0_2.index t (0 : Fin 2) * 256 + 1 * (y 0).val = (i 0).val; omega
  | ⟨1, _⟩ => show win0_2.index t (1 : Fin 2) * 256 + 1 * (y 1).val = (i 1).val; omega

theorem wrBlk0_apply (c : Dev nD) (t : Fin cfg0.N) (y : S256x256.Idx) (i : S256x256.Idx)
    (h0 : (i 0).val = (y 0).val) (h1 : (i 1).val = (y 1).val) :
    wrBlk0 V c t y = wrArr0 V c i := by
  show V c main_v26 (((cfg0.win 3).blk t).view.emb y) = V c main_v26 i
  obtain ⟨-, -, -, -, -, -, e0, e1, -⟩ := idx_facts0 t
  refine congrArg (V c main_v26) (funext fun a => Fin.ext ?_)
  match a with
  | ⟨0, _⟩ => show win0_3.index t (0 : Fin 2) * 256 + 1 * (y 0).val = (i 0).val; omega
  | ⟨1, _⟩ => show win0_3.index t (1 : Fin 2) * 256 + 1 * (y 1).val = (i 1).val; omega

theorem biasBlk0_apply (c : Dev nD) (t : Fin cfg0.N) (y : S1x256.Idx) (i : S1x256.Idx)
    (h0 : (i 0).val = (y 0).val) (h1 : (i 1).val = (y 1).val) :
    biasBlk0 V c t y = biasArr0 V c i := by
  show V c main_v27 (((cfg0.win 4).blk t).view.emb y) = V c main_v27 i
  obtain ⟨-, -, -, -, -, -, -, -, e0, e1, -⟩ := idx_facts0 t
  refine congrArg (V c main_v27) (funext fun a => Fin.ext ?_)
  match a with
  | ⟨0, _⟩ => show win0_4.index t (0 : Fin 2) * 1 + 1 * (y 0).val = (i 0).val; omega
  | ⟨1, _⟩ => show win0_4.index t (1 : Fin 2) * 256 + 1 * (y 1).val = (i 1).val; omega

/-- WHAT POINT `t` WRITES BACK is block `t` of `combineRelu` of the entry arrays. -/
theorem flushed0_eq (c : Dev nD) (t : Fin cfg0.N) :
    (dat0 V c).flushed 5 t = ((cfg0.win 5).blk t).view.read (Elt Ideal)
      (combineRelu (aggArr0 V c) (featArr0 V c) (wlArr0 V c) (wrArr0 V c) (biasArr0 V c)) := by
  show (cfg0.win 5).cut (grid0.coords t) ((dat0 V c).after 5 t) = _
  rw [after0_5]
  unfold out0_5
  rw [View.canon_unit_zero zeroOffset0]
  simp only [View.ld_unit_zero (S := S5000x256) zeroOffset0, View.ld_unit_zero (S := S256x256) zeroOffset0, View.ld_unit_zero (S := S1x256) zeroOffset0]
  funext j
  show k0_pay1 (F := Ideal) (aggBlk0 V c t) (featBlk0 V c t) (wlBlk0 V c t) (wrBlk0 V c t) (biasBlk0 V c t) j
    = combineRelu (aggArr0 V c) (featArr0 V c) (wlArr0 V c) (wrArr0 V c) (biasArr0 V c) (((cfg0.win 5).blk t).view.emb j)
  refine (layer1_block_apply (aggBlk0 V c t) (featBlk0 V c t) (wlBlk0 V c t) (wrBlk0 V c t) (biasBlk0 V c t) j).trans ?_
  obtain ⟨-, -, -, -, -, -, -, -, -, -, e5, -⟩ := idx_facts0 t
  have r0 : ((((cfg0.win 5).blk t).view.emb j) 0).val = win0_5.index t (0 : Fin 2) * 5000 + (j 0).val := by
    show win0_5.index t (0 : Fin 2) * 5000 + 1 * (j 0).val = _; omega
  have r1 : ((((cfg0.win 5).blk t).view.emb j) 1).val = (j 1).val := by
    show win0_5.index t (1 : Fin 2) * 256 + 1 * (j 1).val = _; omega
  have eA : ∀ k : Fin 256, aggBlk0 V c t (rowAt j k) = aggArr0 V c (rowOf (((cfg0.win 5).blk t).view.emb j) k) :=
    fun k => aggBlk0_apply V c t (rowAt j k) (rowOf (((cfg0.win 5).blk t).view.emb j) k) r0 rfl
  have eX : ∀ k : Fin 256, featBlk0 V c t (rowAt j k) = featArr0 V c (rowOf (((cfg0.win 5).blk t).view.emb j) k) :=
    fun k => featBlk0_apply V c t (rowAt j k) (rowOf (((cfg0.win 5).blk t).view.emb j) k) r0 rfl
  have eL : ∀ k : Fin 256, wlBlk0 V c t (colAt j k) = wlArr0 V c (colOf (((cfg0.win 5).blk t).view.emb j) k) :=
    fun k => wlBlk0_apply V c t (colAt j k) (colOf (((cfg0.win 5).blk t).view.emb j) k) rfl r1
  have eR : ∀ k : Fin 256, wrBlk0 V c t (colAt j k) = wrArr0 V c (colOf (((cfg0.win 5).blk t).view.emb j) k) :=
    fun k => wrBlk0_apply V c t (colAt j k) (colOf (((cfg0.win 5).blk t).view.emb j) k) rfl r1
  have eB : biasBlk0 V c t (biasAt j) = biasArr0 V c (biasOf (((cfg0.win 5).blk t).view.emb j)) :=
    biasBlk0_apply V c t (biasAt j) (biasOf (((cfg0.win 5).blk t).view.emb j)) rfl r1
  have s1 : (∑ k : Fin 256, aggBlk0 V c t (rowAt j k) * wlBlk0 V c t (colAt j k))
      = ∑ k : Fin 256, aggArr0 V c (rowOf (((cfg0.win 5).blk t).view.emb j) k) * wlArr0 V c (colOf (((cfg0.win 5).blk t).view.emb j) k) :=
    Finset.sum_congr rfl fun k _ => by rw [eA k, eL k]
  have s2 : (∑ k : Fin 256, featBlk0 V c t (rowAt j k) * wrBlk0 V c t (colAt j k))
      = ∑ k : Fin 256, featArr0 V c (rowOf (((cfg0.win 5).blk t).view.emb j) k) * wrArr0 V c (colOf (((cfg0.win 5).blk t).view.emb j) k) :=
    Finset.sum_congr rfl fun k _ => by rw [eX k, eR k]
  rw [s1, s2, eB]
  rfl

/-- An index of the output array is in point `t`'s block iff each coordinate is in the block's range on its axis. -/
theorem mem_blk0 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v28).slice (win0_5.rect t)).set ↔ _
  rw [View.set_slice_whole, Rect.mem_set_unit]
  exact Iff.rfl

/-- Row r lies in the block of point r / 5000: the ten blocks tile the output. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- THE OUTPUT ARRAY after the region: `combineRelu` of the entry arrays, everywhere. -/
theorem final0 (c : Dev nD) : (dat0 V c).arrAt 5 cfg0.N
    = combineRelu (aggArr0 V c) (featArr0 V c) (wlArr0 V c) (wrArr0 V c) (biasArr0 V c) :=
  (dat0 V c).arrAt_eq_of_cover 5 _ (fun t _ => flushed0_eq V c t) cover0

end Cert.KernelIdeal.Sage

end
-- ==== Proof.RegionArray1.lean ====
/-
  Region 1 as one function of the arrays it is entered with.

  The launch walks ten grid points; point t stages rows 5000·t … 5000·t + 4999 of the two feature arrays, the two
  weight matrices and the bias row whole, runs the body, and writes its 5000×256 result back over the same rows of
  the output array. A result row reads only its own row of the features, so what point t writes back is block t of
  `combine` of the whole entry arrays; the ten blocks tile the output, which therefore ends holding `combine` everywhere.
  Stated at any entry contents `V`, so that the run can put in the contents this region really finds.
-/
import proofs.«118461_j24610162606526_1_alg».proof.Proof.KernelIdealFrameP
import proofs.«118461_j24610162606526_1_alg».proof.Proof.BlockProduct

set_option maxRecDepth 16384

noncomputable section

namespace Cert.KernelIdeal.Sage

open Cert.KernelIdeal Cert.KernelIdeal.Gen Cert.KernelIdeal.GenP Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! The entry arrays and the staged blocks, each under its literal type. -/

abbrev aggArr1 (c : Dev nD) : FVec Ideal S50000x256 .bf16 := V c main_v48
abbrev featArr1 (c : Dev nD) : FVec Ideal S50000x256 .bf16 := V c main_v49
abbrev wlArr1 (c : Dev nD) : FVec Ideal S256x256 .bf16 := V c main_v50
abbrev wrArr1 (c : Dev nD) : FVec Ideal S256x256 .bf16 := V c main_v51
abbrev biasArr1 (c : Dev nD) : FVec Ideal S1x256 .f32 := V c main_v52

abbrev aggBlk1 (c : Dev nD) (t : Fin cfg1.N) : Vec Ideal S5000x256 .bf16 := iblk1 V c 0 t
abbrev featBlk1 (c : Dev nD) (t : Fin cfg1.N) : Vec Ideal S5000x256 .bf16 := iblk1 V c 1 t
abbrev wlBlk1 (c : Dev nD) (t : Fin cfg1.N) : Vec Ideal S256x256 .bf16 := iblk1 V c 2 t
abbrev wrBlk1 (c : Dev nD) (t : Fin cfg1.N) : Vec Ideal S256x256 .bf16 := iblk1 V c 3 t
abbrev biasBlk1 (c : Dev nD) (t : Fin cfg1.N) : Vec Ideal S1x256 .f32 := iblk1 V c 4 t

theorem zeroOffset1 : (![0, 0] : Fin 2 → Nat) = fun _ => 0 := funext fun a => by fin_cases a <;> rfl

/-- The printed index maps over the ten points: the two feature windows and the output move together down the rows
    and stay at column block 0; the weights and the bias stay at block (0, 0); the output's row block is the point. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem idx_onto1 : ∀ q : Fin 10, ∃ t : Fin cfg1.N, win1_5.index t = ![q.val, 0] :=
  (by decide +kernel : ∀ q : Fin 10, ∃ t : Fin grid1.N, win1_5.index t = ![q.val, 0])

/-! A staged block's entry is the array's entry at block index × block size + the coordinate inside the block. -/

theorem aggBlk1_apply (c : Dev nD) (t : Fin cfg1.N) (y : S5000x256.Idx) (i : S50000x256.Idx)
    (h0 : (i 0).val = win1_5.index t (0 : Fin 2) * 5000 + (y 0).val) (h1 : (i 1).val = (y 1).val) :
    aggBlk1 V c t y = aggArr1 V c i := by
  show V c main_v48 (((cfg1.win 0).blk t).view.emb y) = V c main_v48 i
  obtain ⟨e0, e1, -⟩ := idx_facts1 t
  refine congrArg (V c main_v48) (funext fun a => Fin.ext ?_)
  match a with
  | ⟨0, _⟩ => show win1_0.index t (0 : Fin 2) * 5000 + 1 * (y 0).val = (i 0).val; omega
  | ⟨1, _⟩ => show win1_0.index t (1 : Fin 2) * 256 + 1 * (y 1).val = (i 1).val; omega

theorem featBlk1_apply (c : Dev nD) (t : Fin cfg1.N) (y : S5000x256.Idx) (i : S50000x256.Idx)
    (h0 : (i 0).val = win1_5.index t (0 : Fin 2) * 5000 + (y 0).val) (h1 : (i 1).val = (y 1).val) :
    featBlk1 V c t y = featArr1 V c i := by
  show V c main_v49 (((cfg1.win 1).blk t).view.emb y) = V c main_v49 i
  obtain ⟨-, -, e0, e1, -⟩ := idx_facts1 t
  refine congrArg (V c main_v49) (funext fun a => Fin.ext ?_)
  match a with
  | ⟨0, _⟩ => show win1_1.index t (0 : Fin 2) * 5000 + 1 * (y 0).val = (i 0).val; omega
  | ⟨1, _⟩ => show win1_1.index t (1 : Fin 2) * 256 + 1 * (y 1).val = (i 1).val; omega

theorem wlBlk1_apply (c : Dev nD) (t : Fin cfg1.N) (y : S256x256.Idx) (i : S256x256.Idx)
    (h0 : (i 0).val = (y 0).val) (h1 : (i 1).val = (y 1).val) :
    wlBlk1 V c t y = wlArr1 V c i := by
  show V c main_v50 (((cfg1.win 2).blk t).view.emb y) = V c main_v50 i
  obtain ⟨-, -, -, -, e0, e1, -⟩ := idx_facts1 t
  refine congrArg (V c main_v50) (funext fun a => Fin.ext ?_)
  match a with
  | ⟨0, _⟩ => show win1_2.index t (0 : Fin 2) * 256 + 1 * (y 0).val = (i 0).val; omega
  | ⟨1, _⟩ => show win1_2.index t (1 : Fin 2) * 256 + 1 * (y 1).val = (i 1).val; omega

theorem wrBlk1_apply (c : Dev nD) (t : Fin cfg1.N) (y : S256x256.Idx) (i : S256x256.Idx)
    (h0 : (i 0).val = (y 0).val) (h1 : (i 1).val = (y 1).val) :
    wrBlk1 V c t y = wrArr1 V c i := by
  show V c main_v51 (((cfg1.win 3).blk t).view.emb y) = V c main_v51 i
  obtain ⟨-, -, -, -, -, -, e0, e1, -⟩ := idx_facts1 t
  refine congrArg (V c main_v51) (funext fun a => Fin.ext ?_)
  match a with
  | ⟨0, _⟩ => show win1_3.index t (0 : Fin 2) * 256 + 1 * (y 0).val = (i 0).val; omega
  | ⟨1, _⟩ => show win1_3.index t (1 : Fin 2) * 256 + 1 * (y 1).val = (i 1).val; omega

theorem biasBlk1_apply (c : Dev nD) (t : Fin cfg1.N) (y : S1x256.Idx) (i : S1x256.Idx)
    (h0 : (i 0).val = (y 0).val) (h1 : (i 1).val = (y 1).val) :
    biasBlk1 V c t y = biasArr1 V c i := by
  show V c main_v52 (((cfg1.win 4).blk t).view.emb y) = V c main_v52 i
  obtain ⟨-, -, -, -, -, -, -, -, e0, e1, -⟩ := idx_facts1 t
  refine congrArg (V c main_v52) (funext fun a => Fin.ext ?_)
  match a with
  | ⟨0, _⟩ => show win1_4.index t (0 : Fin 2) * 1 + 1 * (y 0).val = (i 0).val; omega
  | ⟨1, _⟩ => show win1_4.index t (1 : Fin 2) * 256 + 1 * (y 1).val = (i 1).val; omega

/-- WHAT POINT `t` WRITES BACK is block `t` of `combine` of the entry arrays. -/
theorem flushed1_eq (c : Dev nD) (t : Fin cfg1.N) :
    (dat1 V c).flushed 5 t = ((cfg1.win 5).blk t).view.read (Elt Ideal)
      (combine (aggArr1 V c) (featArr1 V c) (wlArr1 V c) (wrArr1 V c) (biasArr1 V c)) := by
  show (cfg1.win 5).cut (grid1.coords t) ((dat1 V c).after 5 t) = _
  rw [after1_5]
  unfold out1_5
  rw [View.canon_unit_zero zeroOffset1]
  simp only [View.ld_unit_zero (S := S5000x256) zeroOffset1, View.ld_unit_zero (S := S256x256) zeroOffset1, View.ld_unit_zero (S := S1x256) zeroOffset1]
  funext j
  show k1_pay1 (F := Ideal) (aggBlk1 V c t) (featBlk1 V c t) (wlBlk1 V c t) (wrBlk1 V c t) (biasBlk1 V c t) j
    = combine (aggArr1 V c) (featArr1 V c) (wlArr1 V c) (wrArr1 V c) (biasArr1 V c) (((cfg1.win 5).blk t).view.emb j)
  refine (layer2_block_apply (aggBlk1 V c t) (featBlk1 V c t) (wlBlk1 V c t) (wrBlk1 V c t) (biasBlk1 V c t) j).trans ?_
  obtain ⟨-, -, -, -, -, -, -, -, -, -, e5, -⟩ := idx_facts1 t
  have r0 : ((((cfg1.win 5).blk t).view.emb j) 0).val = win1_5.index t (0 : Fin 2) * 5000 + (j 0).val := by
    show win1_5.index t (0 : Fin 2) * 5000 + 1 * (j 0).val = _; omega
  have r1 : ((((cfg1.win 5).blk t).view.emb j) 1).val = (j 1).val := by
    show win1_5.index t (1 : Fin 2) * 256 + 1 * (j 1).val = _; omega
  have eA : ∀ k : Fin 256, aggBlk1 V c t (rowAt j k) = aggArr1 V c (rowOf (((cfg1.win 5).blk t).view.emb j) k) :=
    fun k => aggBlk1_apply V c t (rowAt j k) (rowOf (((cfg1.win 5).blk t).view.emb j) k) r0 rfl
  have eX : ∀ k : Fin 256, featBlk1 V c t (rowAt j k) = featArr1 V c (rowOf (((cfg1.win 5).blk t).view.emb j) k) :=
    fun k => featBlk1_apply V c t (rowAt j k) (rowOf (((cfg1.win 5).blk t).view.emb j) k) r0 rfl
  have eL : ∀ k : Fin 256, wlBlk1 V c t (colAt j k) = wlArr1 V c (colOf (((cfg1.win 5).blk t).view.emb j) k) :=
    fun k => wlBlk1_apply V c t (colAt j k) (colOf (((cfg1.win 5).blk t).view.emb j) k) rfl r1
  have eR : ∀ k : Fin 256, wrBlk1 V c t (colAt j k) = wrArr1 V c (colOf (((cfg1.win 5).blk t).view.emb j) k) :=
    fun k => wrBlk1_apply V c t (colAt j k) (colOf (((cfg1.win 5).blk t).view.emb j) k) rfl r1
  have eB : biasBlk1 V c t (biasAt j) = biasArr1 V c (biasOf (((cfg1.win 5).blk t).view.emb j)) :=
    biasBlk1_apply V c t (biasAt j) (biasOf (((cfg1.win 5).blk t).view.emb j)) rfl r1
  have s1 : (∑ k : Fin 256, aggBlk1 V c t (rowAt j k) * wlBlk1 V c t (colAt j k))
      = ∑ k : Fin 256, aggArr1 V c (rowOf (((cfg1.win 5).blk t).view.emb j) k) * wlArr1 V c (colOf (((cfg1.win 5).blk t).view.emb j) k) :=
    Finset.sum_congr rfl fun k _ => by rw [eA k, eL k]
  have s2 : (∑ k : Fin 256, featBlk1 V c t (rowAt j k) * wrBlk1 V c t (colAt j k))
      = ∑ k : Fin 256, featArr1 V c (rowOf (((cfg1.win 5).blk t).view.emb j) k) * wrArr1 V c (colOf (((cfg1.win 5).blk t).view.emb j) k) :=
    Finset.sum_congr rfl fun k _ => by rw [eX k, eR k]
  rw [s1, s2, eB]
  rfl

/-- An index of the output array is in point `t`'s block iff each coordinate is in the block's range on its axis. -/
theorem mem_blk1 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v53).slice (win1_5.rect t)).set ↔ _
  rw [View.set_slice_whole, Rect.mem_set_unit]
  exact Iff.rfl

/-- Row r lies in the block of point r / 5000: the ten blocks tile the output. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 256 ≤ (i 1).val ∧ (i 1).val < win1_5.index t (1 : Fin 2) * 256 + 256; omega

/-- THE OUTPUT ARRAY after the region: `combine` of the entry arrays, everywhere. -/
theorem final1 (c : Dev nD) : (dat1 V c).arrAt 5 cfg1.N
    = combine (aggArr1 V c) (featArr1 V c) (wlArr1 V c) (wrArr1 V c) (biasArr1 V c) :=
  (dat1 V c).arrAt_eq_of_cover 5 _ (fun t _ => flushed1_eq V c t) cover1

end Cert.KernelIdeal.Sage

end
-- ==== Proof.KernelValue.lean ====
/-
  The kernel program's result as a function of its arguments, over the extended reals.

  Region 0 is entered with the mean-aggregate of the input features, the features, the first layer's weights and its
  bias row, and leaves the hidden features `hiddenOf` in its output array. The second host stretch aggregates the
  hidden features over the same edges; region 1 is entered with that aggregate, the hidden features, the second
  layer's weights and bias row, and leaves `resultOf` in the program's result array.
-/
import proofs.«118461_j24610162606526_1_alg».proof.Proof.RegionArray0
import proofs.«118461_j24610162606526_1_alg».proof.Proof.RegionArray1
import proofs.«118461_j24610162606526_1_alg».proof.Proof.HostStretch
import proofs.«118461_j24610162606526_1_alg».proof.Proof.LayerLaw

set_option maxRecDepth 16384

noncomputable section

namespace Cert.KernelIdeal.Sage

open Cert.KernelIdeal Cert.KernelIdeal.Gen Cert.KernelIdeal.GenP Idealize.ShloMosaic Idealize.ShloMosaic.TcCoe Idealize.SL.Sem

/-- The hidden features: the first combine step, cut off below at zero, of the input features' mean-aggregate. -/
def hiddenOf (x : (⟨S50000x256, .f32⟩ : BufTy).Contents (Elt Ideal)) (e : (⟨S2x800000, .i32⟩ : BufTy).Contents (Elt Ideal)) (wl : (⟨S256x256, .f32⟩ : BufTy).Contents (Elt Ideal))
    (b : (⟨S256, .f32⟩ : BufTy).Contents (Elt Ideal)) (wr : (⟨S256x256, .f32⟩ : BufTy).Contents (Elt Ideal)) : FVec Ideal S50000x256 .f32 :=
  combineRelu (meanAggOf (F := Ideal) x (srcOf (F := Ideal) e) (tgtOf (F := Ideal) e)) x wl wr (shapeCast S1x256 b shapeCasts_S256_S1x256)

/-- The result: the second combine step of the hidden features and their mean-aggregate over the same edges. -/
def resultOf (x : (⟨S50000x256, .f32⟩ : BufTy).Contents (Elt Ideal)) (e : (⟨S2x800000, .i32⟩ : BufTy).Contents (Elt Ideal)) (w1l : (⟨S256x256, .f32⟩ : BufTy).Contents (Elt Ideal))
    (b1 : (⟨S256, .f32⟩ : BufTy).Contents (Elt Ideal)) (w1r w2l : (⟨S256x256, .f32⟩ : BufTy).Contents (Elt Ideal)) (b2 : (⟨S256, .f32⟩ : BufTy).Contents (Elt Ideal)) (w2r : (⟨S256x256, .f32⟩ : BufTy).Contents (Elt Ideal)) :
    FVec Ideal S50000x256 .f32 :=
  combine (meanAggOf (F := Ideal) (hiddenOf x e w1l b1 w1r) (srcOf (F := Ideal) e) (tgtOf (F := Ideal) e)) (hiddenOf x e w1l b1 w1r) w2l w2r
    (shapeCast S1x256 b2 shapeCasts_S256_S1x256)

variable (m : (ℓ : Loc nD τ sig) → Buf (Elt Ideal) ℓ) (ρ : Dev nD → PrngReg)

/-- Region 0 leaves the hidden features in its output array. -/
theorem hidden_value (c : Dev nD) :
    V2 m ρ c main_v28 = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  rw [exit0_out, final0 (V1 m ρ) c]
  show combineRelu (V1 m ρ c main_v23) (V1 m ρ c main_v24) (V1 m ρ c main_v25) (V1 m ρ c main_v26) (V1 m ρ c main_v27) = _
  rw [entry0_agg, entry0_feat, entry0_wl, entry0_wr, entry0_bias]
  rw [Cert.Sage.narrow_id, Cert.Sage.narrow_id, Cert.Sage.narrow_id, Cert.Sage.narrow_id]
  rfl

/-- Region 1 leaves the result in the program's result array. -/
theorem result_value (c : Dev nD) :
    W4 m ρ c (Proc.devRef .tc main_v53)
      = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [exit1_out, final1 (V3 m ρ) c]
  show combine (V3 m ρ c main_v48) (V3 m ρ c main_v49) (V3 m ρ c main_v50) (V3 m ρ c main_v51) (V3 m ρ c main_v52) = _
  rw [entry1_agg, entry1_feat, entry1_wl, entry1_wr, entry1_bias, exit0_src, exit0_tgt, exit0_arg5, exit0_arg6, exit0_arg7,
    entry0_src, entry0_tgt, entry0_arg5, entry0_arg6, entry0_arg7, hidden_value]
  rw [Cert.Sage.narrow_id, Cert.Sage.narrow_id, Cert.Sage.narrow_id, Cert.Sage.narrow_id]
  rfl

end Cert.KernelIdeal.Sage

end
-- ==== Proof.lean ====
/-
  Two GraphSAGE layers with mean aggregation (50000 nodes, 800000 edges, 256 features): a kernel program whose combine
  step `agg·W_l + x·W_r + b` runs as two pipelined launches over ten row blocks, against a plain reference.

  Both programs compute the mean-aggregate `agg = meanAgg(h, edges)` with the same host operations (gather the source
  rows, scatter-add onto the target rows, divide by the in-degree, at least one), so it is carried as ONE function and
  never opened. A layer of the reference is `(agg·W_l + b) + h·W_r`; a launch of the kernel stores, row block by row
  block, `(agg·W_l + h·W_r) + b`, the first launch cutting it off below at zero as the reference's relu does. Over the
  extended reals each product into a zero accumulator is the plain row-by-column sum, the narrowing to bf16 is the
  identity, and addition is commutative and associative without any finiteness, so the two layers agree entry by entry
  by `(s + t) + b = (s + b) + t`; the precondition is never opened. The ten blocks of a launch are the restrictions of
  one function of the whole arrays and tile the output, so each launch's output array is that function of the arrays
  the launch is entered with; the second launch is entered with the first one's output. The ideal pass rewrote nothing,
  so the kernel's idealization is its own text.
-/
import proofs.«118461_j24610162606526_1_alg».proof.Defs
import proofs.«118461_j24610162606526_1_alg».proof.Proof.Gen.Kernel
import proofs.«118461_j24610162606526_1_alg».proof.Proof.KernelFrameP
import proofs.«118461_j24610162606526_1_alg».proof.Proof.Gen.KernelIdeal
import proofs.«118461_j24610162606526_1_alg».proof.Proof.KernelIdealFrameP
import proofs.«118461_j24610162606526_1_alg».proof.Proof.KernelIdealRun
import proofs.«118461_j24610162606526_1_alg».proof.Proof.Gen.ReferenceIdeal
import proofs.«118461_j24610162606526_1_alg».proof.Proof.Gen.ReferenceIdeal.Run
import proofs.«118461_j24610162606526_1_alg».proof.Proof.Gen.ReferenceIdeal.Read
import proofs.«118461_j24610162606526_1_alg».proof.Proof.Gen.Pre_finite_inputs
import proofs.«118461_j24610162606526_1_alg».proof.Proof.ReferenceLayers
import proofs.«118461_j24610162606526_1_alg».proof.Proof.LayerLaw
import proofs.«118461_j24610162606526_1_alg».proof.Proof.KernelValue
import Idealize.ShloMosaic.Adequacy
import Idealize.ShloMosaic.Init

noncomputable section

namespace Cert.Proof

open Idealize.ShloMosaic Idealize.ShloMosaic.TcCoe Idealize.SL.Sem
open Cert.KernelIdeal.Sage (resultOf hiddenOf)
open Cert.ReferenceIdeal.Sage (layer hidden)

/-- The reference's result, the second layer of the hidden features, is the kernel program's result as a function of
    the same eight arguments: each layer is the kernel's combine step of the same aggregate (`layer_eq_combine`,
    `hidden_eq_combineRelu`), and the two spellings of the aggregate are one function. -/
theorem reference_is_kernel
    (x : (⟨Cert.ReferenceIdeal.S50000x256, .f32⟩ : BufTy).Contents (Elt Ideal)) (e : (⟨Cert.ReferenceIdeal.S2x800000, .i32⟩ : BufTy).Contents (Elt Ideal))
    (w1l : (⟨Cert.ReferenceIdeal.S256x256, .f32⟩ : BufTy).Contents (Elt Ideal)) (b1 : (⟨Cert.ReferenceIdeal.S256, .f32⟩ : BufTy).Contents (Elt Ideal))
    (w1r w2l : (⟨Cert.ReferenceIdeal.S256x256, .f32⟩ : BufTy).Contents (Elt Ideal)) (b2 : (⟨Cert.ReferenceIdeal.S256, .f32⟩ : BufTy).Contents (Elt Ideal))
    (w2r : (⟨Cert.ReferenceIdeal.S256x256, .f32⟩ : BufTy).Contents (Elt Ideal)) :
    layer (F := Ideal) (hidden (F := Ideal) x e w1l b1 w1r) e w2l b2 w2r = resultOf x e w1l b1 w1r w2l b2 w2r := by
  rw [Cert.Sage.hidden_eq_combineRelu, Cert.Sage.layer_eq_combine, ← Cert.Sage.meanAgg_same, ← Cert.Sage.meanAgg_same]
  rfl

/-- The word-level kernel program runs and keeps its arguments. -/
theorem frame_kernel : Cert.frame_Kernel := fun m ρ _ => Cert.Kernel.GenP.frame m ρ
/-- So does its idealization. -/
theorem frame_kernelIdeal : Cert.frame_KernelIdeal := fun m ρ _ => Cert.KernelIdeal.GenP.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with `resultOf` of the arguments in their result arrays. -/
theorem algebraic : Cert.algebraic_KernelIdeal_ReferenceIdeal := by
  intro m ρ m' ρ' _ hagree
  refine ⟨fun c => resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Sage.result_value m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, Cert.ReferenceIdeal.Sage.result_stage, h0, h1, h2, h3, h4, h5, h6, h7]
    exact reference_is_kernel _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
